-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : IVec S2x1200000 32) (main_arg2 : FVec F S64x64 .f32) (main_arg3 : FVec F S64x64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S1x1200000 : Shape := ⟨2, ![1, 1200000]⟩
abbrev S1200000 : Shape := ⟨1, ![1200000]⟩
abbrev S10000x64 : Shape := ⟨2, ![10000, 64]⟩
abbrev S_ : Shape := ⟨0, ![]⟩
abbrev S1200000x1 : Shape := ⟨2, ![1200000, 1]⟩
abbrev S1200000x64 : Shape := ⟨2, ![1200000, 64]⟩

abbrev nBuf : Space → Nat
  | .hbm => 51
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S1x1200000, .i32⟩
  | .hbm, ⟨6, _⟩ => ⟨S1200000, .i32⟩
  | .hbm, ⟨7, _⟩ => ⟨S1x1200000, .i32⟩
  | .hbm, ⟨8, _⟩ => ⟨S1200000, .i32⟩
  | .hbm, ⟨9, _⟩ => ⟨S100000x64, .f32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S_, .f32⟩
  | .hbm, ⟨20, _⟩ => ⟨S100000x64, .f32⟩
  | .hbm, ⟨21, _⟩ => ⟨S1200000x1, .i32⟩
  | .hbm, ⟨22, _⟩ => ⟨S100000x64, .f32⟩
  | .hbm, ⟨23, _⟩ => ⟨S100000x64, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x64, .f32⟩
  | .hbm, ⟨33, _⟩ => ⟨S_, .f32⟩
  | .hbm, ⟨34, _⟩ => ⟨S100000x64, .f32⟩
  | .hbm, ⟨35, _⟩ => ⟨S1200000x1, .i32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1200000, .i32⟩
  | .hbm, ⟨40, _⟩ => ⟨S1200000, .i1⟩
  | .hbm, ⟨41, _⟩ => ⟨S_, .i32⟩
  | .hbm, ⟨42, _⟩ => ⟨S1200000, .i32⟩
  | .hbm, ⟨43, _⟩ => ⟨S1200000, .i32⟩
  | .hbm, ⟨44, _⟩ => ⟨S1200000, .i32⟩
  | .hbm, ⟨45, _⟩ => ⟨S1200000x1, .i32⟩
  | .hbm, ⟨46, _⟩ => ⟨S1200000x64, .f32⟩
  | .hbm, ⟨47, _⟩ => ⟨S_, .f32⟩
  | .hbm, ⟨48, _⟩ => ⟨S100000x64, .f32⟩
  | .hbm, ⟨49, _⟩ => ⟨S1200000x1, .i32⟩
  | .hbm, ⟨50, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  shapeCasts_S10000x64_S10000x64 : S10000x64.ShapeCasts S10000x64
  dot_S10000x64_S64x64_S10000x64_1_0_0_1_n_n_wf : DotDims.WF S10000x64 S64x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v25) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩

abbrev nBuf : Space → Nat
  | .hbm => 51
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S1x1200000, .i32⟩
  | .hbm, ⟨6, _⟩ => ⟨S1200000, .i32⟩
  | .hbm, ⟨7, _⟩ => ⟨S1x1200000, .i32⟩
  | .hbm, ⟨8, _⟩ => ⟨S1200000, .i32⟩
  | .hbm, ⟨9, _⟩ => ⟨S100000x64, .f32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S_, .f32⟩
  | .hbm, ⟨20, _⟩ => ⟨S100000x64, .f32⟩
  | .hbm, ⟨21, _⟩ => ⟨S1200000x1, .i32⟩
  | .hbm, ⟨22, _⟩ => ⟨S100000x64, .f32⟩
  | .hbm, ⟨23, _⟩ => ⟨S100000x64, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x64, .f32⟩
  | .hbm, ⟨33, _⟩ => ⟨S_, .f32⟩
  | .hbm, ⟨34, _⟩ => ⟨S100000x64, .f32⟩
  | .hbm, ⟨35, _⟩ => ⟨S1200000x1, .i32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1200000, .i32⟩
  | .hbm, ⟨40, _⟩ => ⟨S1200000, .i1⟩
  | .hbm, ⟨41, _⟩ => ⟨S_, .i32⟩
  | .hbm, ⟨42, _⟩ => ⟨S1200000, .i32⟩
  | .hbm, ⟨43, _⟩ => ⟨S1200000, .i32⟩
  | .hbm, ⟨44, _⟩ => ⟨S1200000, .i32⟩
  | .hbm, ⟨45, _⟩ => ⟨S1200000x1, .i32⟩
  | .hbm, ⟨46, _⟩ => ⟨S1200000x64, .f32⟩
  | .hbm, ⟨47, _⟩ => ⟨S_, .f32⟩
  | .hbm, ⟨48, _⟩ => ⟨S100000x64, .f32⟩
  | .hbm, ⟨49, _⟩ => ⟨S1200000x1, .i32⟩
  | .hbm, ⟨50, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.BlockProduct.lean ====
/-
  The arithmetic of one grid point of each of the three linear layers.  A point multiplies a block of
  10000 rows of the layer's input (64 features each) by the layer's whole 64 x 64 weight matrix, into a
  zero accumulator.  Over the extended reals the narrowing of both operands to bf16 is the identity, so
  the entry of the product at row r and column q is the plain sum over k < 64 of
  (block at (r, k)) * (weight at (k, q)).  The three layers' bodies are this same term; the second and
  third first pass the block through a reshape to its own shape, which is the identity as well.
-/
import proofs.«178471_j42339787604899_1_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.Tactic

noncomputable section

namespace Cert.KernelIdeal.Layer

open Cert.KernelIdeal Cert.KernelIdeal.Gen Idealize.ShloMosaic Idealize.ShloMosaic.TcCoe Idealize.SL.Sem

/-- The left operand's index for output index i and contraction index k keeps i's row. -/
theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- and takes k as its column. -/
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's index takes k as its row -/
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- and keeps i's column. -/
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (row of i, k) of a block. -/
abbrev rowAt (i : S10000x64.Idx) (k : Fin 64) : S10000x64.Idx := fun a => match a with
  | ⟨0, _⟩ => ⟨(i 0).val, (i 0).isLt⟩
  | ⟨1, _⟩ => ⟨k.val, k.isLt⟩
/-- Entry (k, column of i) of the weight matrix. -/
abbrev colAt (i : S10000x64.Idx) (k : Fin 64) : S64x64.Idx := fun a => match a with
  | ⟨0, _⟩ => ⟨k.val, k.isLt⟩
  | ⟨1, _⟩ => ⟨(i 1).val, (i 1).isLt⟩

/-- The block product into a zero accumulator, entry by entry: a sum of 64 products. -/
theorem product_apply (x : Vec Ideal S10000x64 .f32) (w : Vec Ideal S64x64 .f32) (i : S10000x64.Idx) :
    (matmul dot_S10000x64_S64x64_S10000x64_1_0_0_1_n_n none (truncf .bf16 x bitsLt_bf16_f32) (truncf .bf16 w bitsLt_bf16_f32)
      (constant S10000x64 .f32 0x00000000#32) : FVec Ideal S10000x64 .f32) i
      = ∑ k : Fin 64, x (rowAt i k) * w (colAt i k) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx i ((ValueIdx.contrEquiv1 dot_S10000x64_S64x64_S10000x64_1_0_0_1_n_n 64 rfl rfl).symm k) = rowAt i k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx i ((ValueIdx.contrEquiv1 dot_S10000x64_S64x64_S10000x64_1_0_0_1_n_n 64 rfl rfl).symm k) = colAt i k := funext fun a => Fin.ext (by
    match a with
    | ⟨0, _⟩ => exact (rhs_axis0 _ _).trans hk
    | ⟨1, _⟩ => exact rhs_axis1 _ _)
  rw [el, er]
  rfl

/-- The first layer's stored value is the block product. -/
theorem pay0_apply (x : Vec Ideal S10000x64 .f32) (w : Vec Ideal S64x64 .f32) (i : S10000x64.Idx) :
    k0_pay1 (F := Ideal) x w i = ∑ k : Fin 64, x (rowAt i k) * w (colAt i k) := by
  unfold k0_pay1
  exact product_apply x w i

/-- The second layer's: the reshape of the block to its own shape changes nothing. -/
theorem pay1_apply (x : Vec Ideal S10000x64 .f32) (w : Vec Ideal S64x64 .f32) (i : S10000x64.Idx) :
    k1_pay1 (F := Ideal) x w i = ∑ k : Fin 64, x (rowAt i k) * w (colAt i k) := by
  unfold k1_pay1
  rw [shapeCast_self]
  exact product_apply x w i

/-- The third layer's, likewise. -/
theorem pay2_apply (x : Vec Ideal S10000x64 .f32) (w : Vec Ideal S64x64 .f32) (i : S10000x64.Idx) :
    k2_pay1 (F := Ideal) x w i = ∑ k : Fin 64, x (rowAt i k) * w (colAt i k) := by
  unfold k2_pay1
  rw [shapeCast_self]
  exact product_apply x w i

/-! ## A whole layer -/

/-- Entry (row of i, k) of a layer's whole input. -/
abbrev rowOf (i : S100000x64.Idx) (k : Fin 64) : S100000x64.Idx := fun a => match a with
  | ⟨0, _⟩ => ⟨(i 0).val, (i 0).isLt⟩
  | ⟨1, _⟩ => ⟨k.val, k.isLt⟩
/-- Entry (k, column of i) of the weight matrix, for an index i of the whole output. -/
abbrev colOf (i : S100000x64.Idx) (k : Fin 64) : S64x64.Idx := fun a => match a with
  | ⟨0, _⟩ => ⟨k.val, k.isLt⟩
  | ⟨1, _⟩ => ⟨(i 1).val, (i 1).isLt⟩

/-- The product of a whole input (100000 rows of 64 features) with a 64 x 64 weight matrix, entry by entry. -/
def rowsTimes (X : S100000x64.Idx → EReal) (W : S64x64.Idx → EReal) : S100000x64.Idx → EReal :=
  fun i => ∑ k : Fin 64, X (rowOf i k) * W (colOf i k)

/-- The zero offsets of a whole-buffer access. -/
theorem hz : (![0, 0] : Fin 2 → Nat) = fun _ => 0 := funext fun a => by fin_cases a <;> rfl

end Cert.KernelIdeal.Layer

end
-- ==== Proof.Layer0.lean ====
/-
  The first linear layer over its whole grid.  Its ten grid points each take one block of 10000 rows of the
  layer's input and the whole weight matrix and write the block of the product at the same rows; the blocks
  tile the output, so after the layer the output array is the product of the whole input with the weights:
  entry (r, q) is the sum over k < 64 of input (r, k) * weight (k, q).  Stated for any contents V the layer
  finds its arrays at, over the extended reals.
-/
import proofs.«178471_j42339787604899_1_alg».proof.Proof.Gen.KernelIdeal.Frame
import proofs.«178471_j42339787604899_1_alg».proof.Proof.BlockProduct
import Idealize.ShloMosaic.Lib.Pipeline.Value
import Idealize.ShloMosaic.Lib.Tactic

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block indices of the three windows, decided over the ten grid points: the input and the output move down
    one block of rows per point, the weight matrix stays. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point t is rows 10000 t ... 10000 t + 9999 of the layer's input. -/
theorem rows0 (c : Dev nD) (t : Fin cfg0.N) (y : S10000x64.Idx) (i : S100000x64.Idx)
    (h0 : (i 0).val = 10000 * t.val + (y 0).val) (h1 : (i 1).val = (y 1).val) :
    (iblk0 V c 0 t : Vec Ideal S10000x64 .f32) y = (V c main_arg0 : S100000x64.Idx → EReal) i := by
  obtain ⟨e0, e1, -, -, -, -⟩ := index0 t
  unfold iblk0
  rw [View.read_apply]
  show V c main_arg0 _ = V c main_arg0 _
  congr 1
  funext a
  apply Fin.ext
  match a with
  | ⟨0, _⟩ => show win0_0.index t 0 * 10000 + 1 * (y 0).val = (i 0).val; rw [e0, h0]; omega
  | ⟨1, _⟩ => show win0_0.index t 1 * 64 + 1 * (y 1).val = (i 1).val; rw [e1, h1]; omega

/-- The weight block at every point is the whole weight matrix. -/
theorem weights0 (c : Dev nD) (t : Fin cfg0.N) (y : S64x64.Idx) :
    (iblk0 V c 1 t : Vec Ideal S64x64 .f32) y = (V c main_arg2 : S64x64.Idx → EReal) y := by
  obtain ⟨-, -, e2, e3, -, -⟩ := index0 t
  unfold iblk0
  rw [View.read_apply]
  show V c main_arg2 _ = V c main_arg2 _
  congr 1
  funext a
  apply Fin.ext
  match a with
  | ⟨0, _⟩ => show win0_1.index t 0 * 64 + 1 * (y 0).val = (y 0).val; rw [e2]; omega
  | ⟨1, _⟩ => show win0_1.index t 1 * 64 + 1 * (y 1).val = (y 1).val; rw [e3]; omega

/-- What point t writes back is block t of the product of the whole input with the weights. -/
theorem flushed0_eq (c : Dev nD) (t : Fin cfg0.N) :
    (dat0 V c).flushed 2 t
      = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨-, -, -, -, e4, e5⟩ := index0 t
  funext j
  show k0_pay1 (iblk0 V c 0 t) (iblk0 V c 1 t) j = rowsTimes (V c main_arg0) (V c main_arg2) (((cfg0.win 2).blk t).view.emb j)
  refine (pay0_apply (iblk0 V c 0 t) (iblk0 V c 1 t) j).trans ?_
  refine Finset.sum_congr rfl fun k _ => ?_
  have hj0 : ((((cfg0.win 2).blk t).view.emb j) 0).val = 10000 * t.val + (j 0).val := by
    show win0_2.index t 0 * 10000 + 1 * (j 0).val = _; rw [e4]; omega
  have hj1 : ((((cfg0.win 2).blk t).view.emb j) 1).val = (j 1).val := by
    show win0_2.index t 1 * 64 + 1 * (j 1).val = _; rw [e5]; omega
  rw [rows0 V c t (rowAt j k) (rowOf (((cfg0.win 2).blk t).view.emb j) k) hj0 rfl,
    weights0 V c t (colAt j k)]
  have hcol : colAt j k = colOf (((cfg0.win 2).blk t).view.emb j) k := funext fun a => Fin.ext (by
    match a with
    | ⟨0, _⟩ => rfl
    | ⟨1, _⟩ => exact hj1.symm)
  rw [hcol]

/-- An index of the output array is in point t's block iff each coordinate is in the block's range. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- The ten blocks tile the output array: row r is in the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  rw [mem_block0]
  obtain ⟨-, -, -, -, e4, e5⟩ := index0 ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; dsimp only; omega
  | ⟨1, _⟩ =>
    show win0_2.index _ (1 : Fin 2) * 64 ≤ (i 1).val ∧ (i 1).val < win0_2.index _ (1 : Fin 2) * 64 + 64
    rw [e5]; omega

/-- After the layer's ten points its output array holds the product of the whole input with the weights. -/
theorem product0 (c : Dev nD) :
    (dat0 V c).arrAt 2 cfg0.N = rowsTimes (V c main_arg0) (V c main_arg2) :=
  (dat0 V c).arrAt_eq_of_cover 2 (rowsTimes (V c main_arg0) (V c main_arg2)) (fun t _ => flushed0_eq V c t) cover0

end Cert.KernelIdeal.Layer

end
-- ==== Proof.Layer1.lean ====
/-
  The second linear layer over its whole grid.  Its ten grid points each take one block of 10000 rows of the
  layer's input and the whole weight matrix and write the block of the product at the same rows; the blocks
  tile the output, so after the layer the output array is the product of the whole input with the weights:
  entry (r, q) is the sum over k < 64 of input (r, k) * weight (k, q).  Stated for any contents V the layer
  finds its arrays at, over the extended reals.
-/
import proofs.«178471_j42339787604899_1_alg».proof.Proof.Gen.KernelIdeal.Frame
import proofs.«178471_j42339787604899_1_alg».proof.Proof.BlockProduct
import Idealize.ShloMosaic.Lib.Pipeline.Value
import Idealize.ShloMosaic.Lib.Tactic

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block indices of the three windows, decided over the ten grid points: the input and the output move down
    one block of rows per point, the weight matrix stays. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input block at point t is rows 10000 t ... 10000 t + 9999 of the layer's input. -/
theorem rows1 (c : Dev nD) (t : Fin cfg1.N) (y : S10000x64.Idx) (i : S100000x64.Idx)
    (h0 : (i 0).val = 10000 * t.val + (y 0).val) (h1 : (i 1).val = (y 1).val) :
    (iblk1 V c 0 t : Vec Ideal S10000x64 .f32) y = (V c main_v14 : S100000x64.Idx → EReal) i := by
  obtain ⟨e0, e1, -, -, -, -⟩ := index1 t
  unfold iblk1
  rw [View.read_apply]
  show V c main_v14 _ = V c main_v14 _
  congr 1
  funext a
  apply Fin.ext
  match a with
  | ⟨0, _⟩ => show win1_0.index t 0 * 10000 + 1 * (y 0).val = (i 0).val; rw [e0, h0]; omega
  | ⟨1, _⟩ => show win1_0.index t 1 * 64 + 1 * (y 1).val = (i 1).val; rw [e1, h1]; omega

/-- The weight block at every point is the whole weight matrix. -/
theorem weights1 (c : Dev nD) (t : Fin cfg1.N) (y : S64x64.Idx) :
    (iblk1 V c 1 t : Vec Ideal S64x64 .f32) y = (V c main_arg3 : S64x64.Idx → EReal) y := by
  obtain ⟨-, -, e2, e3, -, -⟩ := index1 t
  unfold iblk1
  rw [View.read_apply]
  show V c main_arg3 _ = V c main_arg3 _
  congr 1
  funext a
  apply Fin.ext
  match a with
  | ⟨0, _⟩ => show win1_1.index t 0 * 64 + 1 * (y 0).val = (y 0).val; rw [e2]; omega
  | ⟨1, _⟩ => show win1_1.index t 1 * 64 + 1 * (y 1).val = (y 1).val; rw [e3]; omega

/-- What point t writes back is block t of the product of the whole input with the weights. -/
theorem flushed1_eq (c : Dev nD) (t : Fin cfg1.N) :
    (dat1 V c).flushed 2 t
      = ((cfg1.win 2).blk t).view.read (Elt Ideal) (rowsTimes (V c main_v14) (V c main_arg3)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  obtain ⟨-, -, -, -, e4, e5⟩ := index1 t
  funext j
  show k1_pay1 (iblk1 V c 0 t) (iblk1 V c 1 t) j = rowsTimes (V c main_v14) (V c main_arg3) (((cfg1.win 2).blk t).view.emb j)
  refine (pay1_apply (iblk1 V c 0 t) (iblk1 V c 1 t) j).trans ?_
  refine Finset.sum_congr rfl fun k _ => ?_
  have hj0 : ((((cfg1.win 2).blk t).view.emb j) 0).val = 10000 * t.val + (j 0).val := by
    show win1_2.index t 0 * 10000 + 1 * (j 0).val = _; rw [e4]; omega
  have hj1 : ((((cfg1.win 2).blk t).view.emb j) 1).val = (j 1).val := by
    show win1_2.index t 1 * 64 + 1 * (j 1).val = _; rw [e5]; omega
  rw [rows1 V c t (rowAt j k) (rowOf (((cfg1.win 2).blk t).view.emb j) k) hj0 rfl,
    weights1 V c t (colAt j k)]
  have hcol : colAt j k = colOf (((cfg1.win 2).blk t).view.emb j) k := funext fun a => Fin.ext (by
    match a with
    | ⟨0, _⟩ => rfl
    | ⟨1, _⟩ => exact hj1.symm)
  rw [hcol]

/-- An index of the output array is in point t's block iff each coordinate is in the block's range. -/
theorem mem_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v15).slice (win1_2.rect t)).set ↔ _
  rw [View.set_slice_whole, Rect.mem_set_unit]
  exact Iff.rfl

/-- The ten blocks tile the output array: row r is in the block of point r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_2 _, ?_⟩
  rw [mem_block1]
  obtain ⟨-, -, -, -, e4, e5⟩ := index1 ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e4]; dsimp only; omega
  | ⟨1, _⟩ =>
    show win1_2.index _ (1 : Fin 2) * 64 ≤ (i 1).val ∧ (i 1).val < win1_2.index _ (1 : Fin 2) * 64 + 64
    rw [e5]; omega

/-- After the layer's ten points its output array holds the product of the whole input with the weights. -/
theorem product1 (c : Dev nD) :
    (dat1 V c).arrAt 2 cfg1.N = rowsTimes (V c main_v14) (V c main_arg3) :=
  (dat1 V c).arrAt_eq_of_cover 2 (rowsTimes (V c main_v14) (V c main_arg3)) (fun t _ => flushed1_eq V c t) cover1

end Cert.KernelIdeal.Layer

end
-- ==== Proof.Layer2.lean ====
/-
  The third linear layer over its whole grid.  Its ten grid points each take one block of 10000 rows of the
  layer's input and the whole weight matrix and write the block of the product at the same rows; the blocks
  tile the output, so after the layer the output array is the product of the whole input with the weights:
  entry (r, q) is the sum over k < 64 of input (r, k) * weight (k, q).  Stated for any contents V the layer
  finds its arrays at, over the extended reals.
-/
import proofs.«178471_j42339787604899_1_alg».proof.Proof.Gen.KernelIdeal.Frame
import proofs.«178471_j42339787604899_1_alg».proof.Proof.BlockProduct
import Idealize.ShloMosaic.Lib.Pipeline.Value
import Idealize.ShloMosaic.Lib.Tactic

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block indices of the three windows, decided over the ten grid points: the input and the output move down
    one block of rows per point, the weight matrix stays. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input block at point t is rows 10000 t ... 10000 t + 9999 of the layer's input. -/
theorem rows2 (c : Dev nD) (t : Fin cfg2.N) (y : S10000x64.Idx) (i : S100000x64.Idx)
    (h0 : (i 0).val = 10000 * t.val + (y 0).val) (h1 : (i 1).val = (y 1).val) :
    (iblk2 V c 0 t : Vec Ideal S10000x64 .f32) y = (V c main_v25 : S100000x64.Idx → EReal) i := by
  obtain ⟨e0, e1, -, -, -, -⟩ := index2 t
  unfold iblk2
  rw [View.read_apply]
  show V c main_v25 _ = V c main_v25 _
  congr 1
  funext a
  apply Fin.ext
  match a with
  | ⟨0, _⟩ => show win2_0.index t 0 * 10000 + 1 * (y 0).val = (i 0).val; rw [e0, h0]; omega
  | ⟨1, _⟩ => show win2_0.index t 1 * 64 + 1 * (y 1).val = (i 1).val; rw [e1, h1]; omega

/-- The weight block at every point is the whole weight matrix. -/
theorem weights2 (c : Dev nD) (t : Fin cfg2.N) (y : S64x64.Idx) :
    (iblk2 V c 1 t : Vec Ideal S64x64 .f32) y = (V c main_arg4 : S64x64.Idx → EReal) y := by
  obtain ⟨-, -, e2, e3, -, -⟩ := index2 t
  unfold iblk2
  rw [View.read_apply]
  show V c main_arg4 _ = V c main_arg4 _
  congr 1
  funext a
  apply Fin.ext
  match a with
  | ⟨0, _⟩ => show win2_1.index t 0 * 64 + 1 * (y 0).val = (y 0).val; rw [e2]; omega
  | ⟨1, _⟩ => show win2_1.index t 1 * 64 + 1 * (y 1).val = (y 1).val; rw [e3]; omega

/-- What point t writes back is block t of the product of the whole input with the weights. -/
theorem flushed2_eq (c : Dev nD) (t : Fin cfg2.N) :
    (dat2 V c).flushed 2 t
      = ((cfg2.win 2).blk t).view.read (Elt Ideal) (rowsTimes (V c main_v25) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨-, -, -, -, e4, e5⟩ := index2 t
  funext j
  show k2_pay1 (iblk2 V c 0 t) (iblk2 V c 1 t) j = rowsTimes (V c main_v25) (V c main_arg4) (((cfg2.win 2).blk t).view.emb j)
  refine (pay2_apply (iblk2 V c 0 t) (iblk2 V c 1 t) j).trans ?_
  refine Finset.sum_congr rfl fun k _ => ?_
  have hj0 : ((((cfg2.win 2).blk t).view.emb j) 0).val = 10000 * t.val + (j 0).val := by
    show win2_2.index t 0 * 10000 + 1 * (j 0).val = _; rw [e4]; omega
  have hj1 : ((((cfg2.win 2).blk t).view.emb j) 1).val = (j 1).val := by
    show win2_2.index t 1 * 64 + 1 * (j 1).val = _; rw [e5]; omega
  rw [rows2 V c t (rowAt j k) (rowOf (((cfg2.win 2).blk t).view.emb j) k) hj0 rfl,
    weights2 V c t (colAt j k)]
  have hcol : colAt j k = colOf (((cfg2.win 2).blk t).view.emb j) k := funext fun a => Fin.ext (by
    match a with
    | ⟨0, _⟩ => rfl
    | ⟨1, _⟩ => exact hj1.symm)
  rw [hcol]

/-- An index of the output array is in point t's block iff each coordinate is in the block's range. -/
theorem mem_block2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v26).slice (win2_2.rect t)).set ↔ _
  rw [View.set_slice_whole, Rect.mem_set_unit]
  exact Iff.rfl

/-- The ten blocks tile the output array: row r is in the block of point r / 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_2 _, ?_⟩
  rw [mem_block2]
  obtain ⟨-, -, -, -, e4, e5⟩ := index2 ⟨(i 0).val / 10000, by rw [hN]; omega⟩
  intro a
  match a with
  | ⟨0, _⟩ =>
    show win2_2.index _ (0 : Fin 2) * 10000 ≤ (i 0).val ∧ (i 0).val < win2_2.index _ (0 : Fin 2) * 10000 + 10000
    rw [e4]; dsimp only; omega
  | ⟨1, _⟩ =>
    show win2_2.index _ (1 : Fin 2) * 64 ≤ (i 1).val ∧ (i 1).val < win2_2.index _ (1 : Fin 2) * 64 + 64
    rw [e5]; omega

/-- After the layer's ten points its output array holds the product of the whole input with the weights. -/
theorem product2 (c : Dev nD) :
    (dat2 V c).arrAt 2 cfg2.N = rowsTimes (V c main_v25) (V c main_arg4) :=
  (dat2 V c).arrAt_eq_of_cover 2 (rowsTimes (V c main_v25) (V c main_arg4)) (fun t _ => flushed2_eq V c t) cover2

end Cert.KernelIdeal.Layer

end
-- ==== Proof.HostFold.lean ====
/-
  The program around the three linear layers.  Before the first layer the edge list (two rows of 1200000
  node numbers) is cut into its row of sources and its row of targets.  After each layer every edge gathers
  its source's row of the layer's output (a negative source number first moved up by the number of nodes)
  and the rows are summed into a zero array at the edges' targets: one round of message passing.  The
  next layer reads that sum.  Here the array the program returns is followed back through the rounds and
  the layers to the five arguments: it is three times "product with the weights, then one round".
-/
import proofs.«178471_j42339787604899_1_alg».proof.Proof.Gen.KernelIdeal.Frame
import proofs.«178471_j42339787604899_1_alg».proof.Proof.Layer0
import proofs.«178471_j42339787604899_1_alg».proof.Proof.Layer1
import proofs.«178471_j42339787604899_1_alg».proof.Proof.Layer2
import Idealize.ShloMosaic.Lib.StableHlo.Run

set_option maxRecDepth 16384

noncomputable section

namespace Cert.KernelIdeal.Layer

open Cert.KernelIdeal Cert.KernelIdeal.Gen Idealize.ShloMosaic Idealize.ShloMosaic.TcCoe Idealize.SL.Sem

section AnyFloat
variable {F : FTy → Type} [FloatOps F]

/-- The edges' sources: row 0 of the edge list. -/
def sources (e : (⟨S2x1200000, .i32⟩ : BufTy).Contents (Elt F)) : (⟨S1200000, .i32⟩ : BufTy).Contents (Elt F) :=
  shapeCast _ (extractStridedSlice S1x1200000 ![0, 0] e slices_S2x1200000_S1x1200000_0_0) shapeCasts_S1x1200000_S1200000
/-- The edges' targets: row 1 of the edge list. -/
def targets (e : (⟨S2x1200000, .i32⟩ : BufTy).Contents (Elt F)) : (⟨S1200000, .i32⟩ : BufTy).Contents (Elt F) :=
  shapeCast _ (extractStridedSlice S1x1200000 ![1, 0] e slices_S2x1200000_S1x1200000_1_0) shapeCasts_S1x1200000_S1200000

/-- One round of message passing over node features h: each edge takes row (source) of h, a negative source first
    raised by 100000, and the rows are added into a zero array at the edges' targets. -/
def round (h : (⟨S100000x64, .f32⟩ : BufTy).Contents (Elt F)) (s d : (⟨S1200000, .i32⟩ : BufTy).Contents (Elt F)) : (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 d)
    (Host.gather gather_S100000x64_S1200000x1_S1200000x64_1_0_n_n_0_1_164 h
      (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 100000#32))) s)))

variable (m : (ℓ : Loc nD τ sig) → Buf (Elt F) ℓ) (ρ : Dev nD → PrngReg)

/-! ## The edge list's two rows, from the first stretch of host operations on -/

theorem sources1 (c : Dev nD) : W1 m ρ c (Proc.devRef .tc main_v1) = sources (m ((c : Thread nD τ).loc main_arg1)) := by
  show StableHlo.after hostOps0 (W0 m ρ c) (Proc.devRef .tc main_v1) = _
  after_results
  rfl
theorem targets1 (c : Dev nD) : W1 m ρ c (Proc.devRef .tc main_v3) = targets (m ((c : Thread nD τ).loc main_arg1)) := by
  show StableHlo.after hostOps0 (W0 m ρ c) (Proc.devRef .tc main_v3) = _
  after_results
  rfl

/-! ## Each stretch after a layer is one round over that layer's output -/

theorem round1 (c : Dev nD) : W3 m ρ c (Proc.devRef .tc main_v14)
    = round (W2 m ρ c (Proc.devRef .tc main_v4)) (W2 m ρ c (Proc.devRef .tc main_v1)) (W2 m ρ c (Proc.devRef .tc main_v3)) := by
  show StableHlo.after hostOps1 (W2 m ρ c) (Proc.devRef .tc main_v14) = _
  after_results
  rfl
theorem round2 (c : Dev nD) : W5 m ρ c (Proc.devRef .tc main_v25)
    = round (W4 m ρ c (Proc.devRef .tc main_v15)) (W4 m ρ c (Proc.devRef .tc main_v1)) (W4 m ρ c (Proc.devRef .tc main_v3)) := by
  show StableHlo.after hostOps2 (W4 m ρ c) (Proc.devRef .tc main_v25) = _
  after_results
  rfl
theorem round3 (c : Dev nD) : W7 m ρ c (Proc.devRef .tc main_v36)
    = round (W6 m ρ c (Proc.devRef .tc main_v26)) (W6 m ρ c (Proc.devRef .tc main_v1)) (W6 m ρ c (Proc.devRef .tc main_v3)) := by
  show StableHlo.after hostOps3 (W6 m ρ c) (Proc.devRef .tc main_v36) = _
  after_results
  rfl

/-! ## What no layer and no round writes stays: the two rows of the edge list and the weights -/

/-- A buffer none of a stretch's operations writes holds after the stretch what it held before. -/
theorem kept0 (c : Dev nD) (b : Ref sig .tc) (hb : b = main_arg0 ∨ b = main_arg2 ∨ b = main_arg3 ∨ b = main_arg4) :
    W1 m ρ c (Proc.devRef .tc b) = m ((c : Thread nD τ).loc b) := by
  rcases hb with rfl | rfl | rfl | rfl <;>
  · show StableHlo.after hostOps0 (W0 m ρ c) _ = _
    after_results
theorem kept1 (c : Dev nD) (b : Ref sig .tc) (hb : b = main_v1 ∨ b = main_v3 ∨ b = main_arg3 ∨ b = main_arg4) :
    W3 m ρ c (Proc.devRef .tc b) = W1 m ρ c (Proc.devRef .tc b) := by
  rcases hb with rfl | rfl | rfl | rfl <;>
  · refine Eq.trans ?_ (W2_of_ne m ρ c _ (by decide))
    show StableHlo.after hostOps1 (W2 m ρ c) _ = _
    after_results
theorem kept2 (c : Dev nD) (b : Ref sig .tc) (hb : b = main_v1 ∨ b = main_v3 ∨ b = main_arg4) :
    W5 m ρ c (Proc.devRef .tc b) = W3 m ρ c (Proc.devRef .tc b) := by
  rcases hb with rfl | rfl | rfl <;>
  · refine Eq.trans ?_ (W4_of_ne m ρ c _ (by decide))
    show StableHlo.after hostOps2 (W4 m ρ c) _ = _
    after_results

end AnyFloat

/-! ## The returned array, over the extended reals -/

variable (m : (ℓ : Loc nD τ sig) → Buf (Elt Ideal) ℓ) (ρ : Dev nD → PrngReg)

/-- Three times: the product with the layer's weights, then one round over the edge list. -/
def network (x : (⟨S100000x64, .f32⟩ : BufTy).Contents (Elt Ideal)) (e : (⟨S2x1200000, .i32⟩ : BufTy).Contents (Elt Ideal))
    (w0 w1 w2 : (⟨S64x64, .f32⟩ : BufTy).Contents (Elt Ideal)) : (⟨S100000x64, .f32⟩ : BufTy).Contents (Elt Ideal) :=
  round (rowsTimes (round (rowsTimes (round (rowsTimes x w0) (sources e) (targets e)) w1) (sources e) (targets e)) w2)
    (sources e) (targets e)

/-- The first layer's output as the first round finds it. -/
theorem layer0_out (c : Dev nD) : W2 m ρ c (Proc.devRef .tc main_v4)
    = rowsTimes (m ((c : Thread nD τ).loc main_arg0)) (m ((c : Thread nD τ).loc main_arg2)) := by
  refine (W2_arr m ρ c 2).trans ((product0 (V1 m ρ) c).trans ?_)
  show rowsTimes (W1 m ρ c (Proc.devRef .tc main_arg0)) (W1 m ρ c (Proc.devRef .tc main_arg2)) = _
  rw [kept0 m ρ c main_arg0 (Or.inl rfl), kept0 m ρ c main_arg2 (Or.inr (Or.inl rfl))]

/-- The second layer's output: the product of what the first round left with the second weights. -/
theorem layer1_out (c : Dev nD) : W4 m ρ c (Proc.devRef .tc main_v15)
    = rowsTimes (W3 m ρ c (Proc.devRef .tc main_v14)) (m ((c : Thread nD τ).loc main_arg3)) := by
  refine (W4_arr m ρ c 2).trans ((product1 (V3 m ρ) c).trans ?_)
  show rowsTimes (W3 m ρ c (Proc.devRef .tc main_v14)) (W3 m ρ c (Proc.devRef .tc main_arg3)) = _
  rw [kept1 m ρ c main_arg3 (Or.inr (Or.inr (Or.inl rfl))), kept0 m ρ c main_arg3 (Or.inr (Or.inr (Or.inl rfl)))]

/-- The third layer's output: the product of what the second round left with the third weights. -/
theorem layer2_out (c : Dev nD) : W6 m ρ c (Proc.devRef .tc main_v26)
    = rowsTimes (W5 m ρ c (Proc.devRef .tc main_v25)) (m ((c : Thread nD τ).loc main_arg4)) := by
  refine (W6_arr m ρ c 2).trans ((product2 (V5 m ρ) c).trans ?_)
  show rowsTimes (W5 m ρ c (Proc.devRef .tc main_v25)) (W5 m ρ c (Proc.devRef .tc main_arg4)) = _
  rw [kept2 m ρ c main_arg4 (Or.inr (Or.inr rfl)), kept1 m ρ c main_arg4 (Or.inr (Or.inr (Or.inr rfl))),
    kept0 m ρ c main_arg4 (Or.inr (Or.inr (Or.inr rfl)))]

/-- THE RESULT: the array the program returns is the network of its five arguments. -/
theorem result_eq (c : Dev nD) : W7 m ρ c (Proc.devRef .tc main_v36)
    = network (m ((c : Thread nD τ).loc main_arg0)) (m ((c : Thread nD τ).loc main_arg1)) (m ((c : Thread nD τ).loc main_arg2))
        (m ((c : Thread nD τ).loc main_arg3)) (m ((c : Thread nD τ).loc main_arg4)) := by
  have s6 : W6 m ρ c (Proc.devRef .tc main_v1) = sources (m ((c : Thread nD τ).loc main_arg1)) :=
    (W6_of_ne m ρ c main_v1 (by decide)).trans ((kept2 m ρ c main_v1 (Or.inl rfl)).trans ((kept1 m ρ c main_v1 (Or.inl rfl)).trans (sources1 m ρ c)))
  have d6 : W6 m ρ c (Proc.devRef .tc main_v3) = targets (m ((c : Thread nD τ).loc main_arg1)) :=
    (W6_of_ne m ρ c main_v3 (by decide)).trans ((kept2 m ρ c main_v3 (Or.inr (Or.inl rfl))).trans ((kept1 m ρ c main_v3 (Or.inr (Or.inl rfl))).trans (targets1 m ρ c)))
  have s4 : W4 m ρ c (Proc.devRef .tc main_v1) = sources (m ((c : Thread nD τ).loc main_arg1)) :=
    (W4_of_ne m ρ c main_v1 (by decide)).trans ((kept1 m ρ c main_v1 (Or.inl rfl)).trans (sources1 m ρ c))
  have d4 : W4 m ρ c (Proc.devRef .tc main_v3) = targets (m ((c : Thread nD τ).loc main_arg1)) :=
    (W4_of_ne m ρ c main_v3 (by decide)).trans ((kept1 m ρ c main_v3 (Or.inr (Or.inl rfl))).trans (targets1 m ρ c))
  have s2 : W2 m ρ c (Proc.devRef .tc main_v1) = sources (m ((c : Thread nD τ).loc main_arg1)) :=
    (W2_of_ne m ρ c main_v1 (by decide)).trans (sources1 m ρ c)
  have d2 : W2 m ρ c (Proc.devRef .tc main_v3) = targets (m ((c : Thread nD τ).loc main_arg1)) :=
    (W2_of_ne m ρ c main_v3 (by decide)).trans (targets1 m ρ c)
  rw [round3, s6, d6, layer2_out, round2, s4, d4, layer1_out, round1, s2, d2, layer0_out]
  rfl

end Cert.KernelIdeal.Layer

end
-- ==== Proof.RefNetwork.lean ====
/-
  The reference: three graph-convolution layers, each the product of the node features with the layer's
  weights (one matrix product over all 100000 nodes) followed by one round of message passing over the edge
  list.  Its run's result term is read here as that composition, the matrix product entry by entry as a sum of
  64 products; and that composition is the kernel program's network, name for name: the rounds are the same
  host operations on both sides, and the kernel's three layers compute the same products block by block.
-/
import proofs.«178471_j42339787604899_1_alg».proof.Proof.Gen.ReferenceIdeal.Read
import proofs.«178471_j42339787604899_1_alg».proof.Proof.HostFold

set_option maxRecDepth 16384

noncomputable section

namespace Cert.ReferenceIdeal.Net

open Cert.ReferenceIdeal Cert.ReferenceIdeal.Gen Idealize.ShloMosaic Idealize.ShloMosaic.TcCoe Idealize.SL.Sem

section AnyFloat
variable {F : FTy → Type} [FloatOps F]

/-- The edges' sources: row 0 of the edge list. -/
def sources (e : (⟨S2x1200000, .i32⟩ : BufTy).Contents (Elt F)) : (⟨S1200000, .i32⟩ : BufTy).Contents (Elt F) :=
  shapeCast _ (extractStridedSlice S1x1200000 ![0, 0] e slices_S2x1200000_S1x1200000_0_0) shapeCasts_S1x1200000_S1200000
/-- The edges' targets: row 1 of the edge list. -/
def targets (e : (⟨S2x1200000, .i32⟩ : BufTy).Contents (Elt F)) : (⟨S1200000, .i32⟩ : BufTy).Contents (Elt F) :=
  shapeCast _ (extractStridedSlice S1x1200000 ![1, 0] e slices_S2x1200000_S1x1200000_1_0) shapeCasts_S1x1200000_S1200000

/-- One round of message passing: each edge takes row (source) of h, a negative source first raised by 100000, and
    the rows are added into a zero array at the edges' targets. -/
def round (h : (⟨S100000x64, .f32⟩ : BufTy).Contents (Elt F)) (s d : (⟨S1200000, .i32⟩ : BufTy).Contents (Elt F)) : (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 d)
    (Host.gather gather_S100000x64_S1200000x1_S1200000x64_1_0_n_n_0_1_164 h
      (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 100000#32))) s)))

/-- One layer: the product with the weights, then a round. -/
def layer (x : (⟨S100000x64, .f32⟩ : BufTy).Contents (Elt F)) (w : (⟨S64x64, .f32⟩ : BufTy).Contents (Elt F)) (s d : (⟨S1200000, .i32⟩ : BufTy).Contents (Elt F)) : (⟨S100000x64, .f32⟩ : BufTy).Contents (Elt F) :=
  round (Host.dotGeneral dot_S100000x64_S64x64_S100000x64_1_0_0_1_n_n none x w) s d

/-- The reference's three layers. -/
def network (x : (⟨S100000x64, .f32⟩ : BufTy).Contents (Elt F)) (e : (⟨S2x1200000, .i32⟩ : BufTy).Contents (Elt F)) (w0 w1 w2 : (⟨S64x64, .f32⟩ : BufTy).Contents (Elt F)) : (⟨S100000x64, .f32⟩ : BufTy).Contents (Elt F) :=
  layer (layer (layer x w0 (sources e) (targets e)) w1 (sources e) (targets e)) w2 (sources e) (targets e)

end AnyFloat

/-- The reference's run, its result named: the network of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = network (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by unfold network layer round sources targets; rfl), (h c).2⟩)
    (Cert.ReferenceIdeal.Value.run (F := Ideal) m ρ)

/-- The host's matrix product over all the nodes, entry by entry: the sum of 64 products the kernel's layers tile. -/
theorem product_eq (x : (⟨S100000x64, .f32⟩ : BufTy).Contents (Elt Ideal)) (w : (⟨S64x64, .f32⟩ : BufTy).Contents (Elt Ideal)) :
    Host.dotGeneral (F := Ideal) (φ₁ := .f32) (φ₂ := .f32) dot_S100000x64_S64x64_S100000x64_1_0_0_1_n_n none x w = Cert.KernelIdeal.Layer.rowsTimes x w := by
  funext i
  show Cert.ReferenceIdeal.Read.val_main_v4 (F := Ideal) x w i = _
  rw [Cert.ReferenceIdeal.Read.val_main_v4_apply]
  unfold Cert.KernelIdeal.Layer.rowsTimes
  refine Finset.sum_congr rfl fun k _ => ?_
  have el : Cert.ReferenceIdeal.Read.lidx_main_v4 i k = Cert.KernelIdeal.Layer.rowOf i k := funext fun a => by
    match a with
    | ⟨0, _⟩ => rfl
    | ⟨1, _⟩ => rfl
  have er : Cert.ReferenceIdeal.Read.ridx_main_v4 i k = Cert.KernelIdeal.Layer.colOf i k := funext fun a => by
    match a with
    | ⟨0, _⟩ => rfl
    | ⟨1, _⟩ => rfl
  rw [el, er]

/-- The two programs' rounds and edge rows are the same host operations. -/
theorem round_eq (h : (⟨S100000x64, .f32⟩ : BufTy).Contents (Elt Ideal)) (s d : (⟨S1200000, .i32⟩ : BufTy).Contents (Elt Ideal)) : round (F := Ideal) h s d = Cert.KernelIdeal.Layer.round (F := Ideal) h s d := rfl
theorem sources_eq (e : (⟨S2x1200000, .i32⟩ : BufTy).Contents (Elt Ideal)) : sources (F := Ideal) e = Cert.KernelIdeal.Layer.sources (F := Ideal) e := rfl
theorem targets_eq (e : (⟨S2x1200000, .i32⟩ : BufTy).Contents (Elt Ideal)) : targets (F := Ideal) e = Cert.KernelIdeal.Layer.targets (F := Ideal) e := rfl

/-- The reference's network is the kernel program's. -/
theorem network_eq (x : (⟨S100000x64, .f32⟩ : BufTy).Contents (Elt Ideal)) (e : (⟨S2x1200000, .i32⟩ : BufTy).Contents (Elt Ideal)) (w0 w1 w2 : (⟨S64x64, .f32⟩ : BufTy).Contents (Elt Ideal)) :
    network (F := Ideal) x e w0 w1 w2 = Cert.KernelIdeal.Layer.network x e w0 w1 w2 := by
  unfold network layer Cert.KernelIdeal.Layer.network
  rw [product_eq, product_eq, product_eq, round_eq, round_eq, round_eq, sources_eq, targets_eq]

end Cert.ReferenceIdeal.Net

end
-- ==== Proof.lean ====
/-
  A three-layer graph convolution (no normalisation, no bias, sum aggregation) over 100000 nodes with 64
  features and 1200000 edges.  Each layer multiplies the node features by a 64 x 64 weight matrix, then every
  edge gathers its source's row of the product and the rows are summed at the edges' targets; the next layer
  reads that sum.  The kernel program computes each layer's matrix product in a Pallas call over ten blocks of
  10000 rows, with both operands narrowed to bf16 first; the gather and the scatter-add are the same host
  operations in both programs.  The reference computes each product as one matrix product over all the rows.

  Over the extended reals the narrowing is the identity, and a block of rows of the product depends only on
  the same rows of the input: entry (r, q) of either product is the sum over k < 64 of input (r, k) *
  weight (k, q), the same 64 terms in the same order, so no law of the extended reals beyond that is used and
  the inputs' finiteness is never opened.  The blocks tile the rows, so each layer's output array is the whole
  product (Layer0, Layer1, Layer2 over BlockProduct); the program's result followed back through the rounds
  and the layers is the network of its arguments (HostFold); the reference's run is the same network
  (RefNetwork).  The three frames are the programs' runs; no operation was rewritten by the idealization, so
  nothing is owed for it.
-/
import proofs.«178471_j42339787604899_1_alg».proof.Defs
import proofs.«178471_j42339787604899_1_alg».proof.Proof.Gen.Kernel
import proofs.«178471_j42339787604899_1_alg».proof.Proof.Gen.Kernel.Skeleton
import proofs.«178471_j42339787604899_1_alg».proof.Proof.Gen.Kernel.Launch
import proofs.«178471_j42339787604899_1_alg».proof.Proof.Gen.Kernel.Points
import proofs.«178471_j42339787604899_1_alg».proof.Proof.Gen.Kernel.Frame
import proofs.«178471_j42339787604899_1_alg».proof.Proof.Gen.KernelIdeal
import proofs.«178471_j42339787604899_1_alg».proof.Proof.Gen.KernelIdeal.Skeleton
import proofs.«178471_j42339787604899_1_alg».proof.Proof.Gen.KernelIdeal.Launch
import proofs.«178471_j42339787604899_1_alg».proof.Proof.Gen.KernelIdeal.Points
import proofs.«178471_j42339787604899_1_alg».proof.Proof.Gen.KernelIdeal.Frame
import proofs.«178471_j42339787604899_1_alg».proof.Proof.Gen.ReferenceIdeal
import proofs.«178471_j42339787604899_1_alg».proof.Proof.Gen.Pre_finite_inputs
import proofs.«178471_j42339787604899_1_alg».proof.Proof.Gen.ReferenceIdeal.Run
import proofs.«178471_j42339787604899_1_alg».proof.Proof.Gen.ReferenceIdeal.Read
import proofs.«178471_j42339787604899_1_alg».proof.Proof.KernelIdealRun
import proofs.«178471_j42339787604899_1_alg».proof.Proof.HostFold
import proofs.«178471_j42339787604899_1_alg».proof.Proof.RefNetwork
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ
/-- So does its reading over the extended reals. -/
theorem frame_kernelIdeal : Cert.frame_KernelIdeal := fun m ρ _ => Cert.KernelIdeal.Gen.frame m ρ
/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the arguments in their result array: three times the product with a
    layer's weights followed by a round of message passing over the edge list. -/
theorem algebraic : Cert.algebraic_KernelIdeal_ReferenceIdeal := by
  intro m ρ m' ρ' _ hagree
  refine ⟨fun c => Cert.KernelIdeal.Layer.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Layer.result_eq m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Net.run m' ρ')
    rw [(hagree c).1, (hagree c).2.1, (hagree c).2.2.1, (hagree c).2.2.2.1, (hagree c).2.2.2.2]
    exact Cert.ReferenceIdeal.Net.network_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
